-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3x128 : Shape := ⟨3, ![100000, 3, 128]⟩
abbrev S384x128 : Shape := ⟨2, ![384, 128]⟩
abbrev S128 : Shape := ⟨1, ![128]⟩
abbrev S128x32 : Shape := ⟨2, ![128, 32]⟩
abbrev S32 : Shape := ⟨1, ![32]⟩
abbrev S128x1 : Shape := ⟨2, ![128, 1]⟩
abbrev S1 : Shape := ⟨1, ![1]⟩
abbrev S_ : Shape := ⟨0, ![]⟩

class Facts : Prop where
  bcast_S_S100000x3x128 : S_.BroadcastsInDim S100000x3x128 (![] : Fin 0 → Fin S100000x3x128.rank)
  reducesTo_S100000x3x128_S_d0_1_2 : S100000x3x128.ReducesTo [0, 1, 2] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S32 .f32) (main_arg5 : FVec F S128x1 .f32) (main_arg6 : FVec F S1 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x3x128 .f32) (main_arg1 : FVec F S384x128 .f32) (main_arg2 : FVec F S128 .f32) (main_arg3 : FVec F S128x32 .f32) (main_arg4 : FVec F S32 .f32) (main_arg5 : FVec F S128x1 .f32) (main_arg6 : FVec F S1 .f32) : IVec S_ 1 :=
  let main_v0 : FVec F S100000x3x128 .f32 := Host.absf main_arg0
  let main_cst : FVec F S_ .f32 := constant S_ .f32 0x7F800000#32
  let main_v1 : FVec F S100000x3x128 .f32 := broadcastInDim S100000x3x128 ![] bcast_S_S100000x3x128 main_cst
  let main_v2 : IVec S100000x3x128 1 := cmpf .olt main_v0 main_v1
  let main_c : IVec S_ 1 := constantI S_ 1 1#1
  let main_v3 : IVec S_ 1 := (fun x v => Host.reduce IntOp.andi x v reducesTo_S100000x3x128_S_d0_1_2 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_arg5 main_arg6 main_v13 main_v16
-- ==== Kernel.lean ====
abbrev S100000x3x128 : Shape := ⟨3, ![100000, 3, 128]⟩
abbrev S384x128 : Shape := ⟨2, ![384, 128]⟩
abbrev S128 : Shape := ⟨1, ![128]⟩
abbrev S128x32 : Shape := ⟨2, ![128, 32]⟩
abbrev S32 : Shape := ⟨1, ![32]⟩
abbrev S128x1 : Shape := ⟨2, ![128, 1]⟩
abbrev S1 : Shape := ⟨1, ![1]⟩
abbrev S3x128x128 : Shape := ⟨3, ![3, 128, 128]⟩
abbrev S1x128 : Shape := ⟨2, ![1, 128]⟩
abbrev S1x32 : Shape := ⟨2, ![1, 32]⟩
abbrev S1x1 : Shape := ⟨2, ![1, 1]⟩
abbrev S100000x32 : Shape := ⟨2, ![100000, 32]⟩
abbrev S100000x1 : Shape := ⟨2, ![100000, 1]⟩
abbrev S2000x3x128 : Shape := ⟨3, ![2000, 3, 128]⟩
abbrev S2000x32 : Shape := ⟨2, ![2000, 32]⟩
abbrev S2000x1 : Shape := ⟨2, ![2000, 1]⟩
abbrev S2000x1x128 : Shape := ⟨3, ![2000, 1, 128]⟩
abbrev S2000x128 : Shape := ⟨2, ![2000, 128]⟩
abbrev S1x128x128 : Shape := ⟨3, ![1, 128, 128]⟩
abbrev S128x128 : Shape := ⟨2, ![128, 128]⟩
abbrev S2000 : Shape := ⟨1, ![2000]⟩

abbrev nBuf : Space → Nat
  | .hbm => 13
  | .vmem => 12
  | .smem => 0
  | _ => 0

abbrev bufTy : (tb : Table) → Fin (tcTables nBuf tb) → BufTy
  | .hbm, ⟨0, _⟩ => ⟨S100000x3x128, .f32⟩
  | .hbm, ⟨1, _⟩ => ⟨S384x128, .f32⟩
  | .hbm, ⟨2, _⟩ => ⟨S128, .f32⟩
  | .hbm, ⟨3, _⟩ => ⟨S128x32, .f32⟩
  | .hbm, ⟨4, _⟩ => ⟨S32, .f32⟩
  | .hbm, ⟨5, _⟩ => ⟨S128x1, .f32⟩
  | .hbm, ⟨6, _⟩ => ⟨S1, .f32⟩
  | .hbm, ⟨7, _⟩ => ⟨S3x128x128, .f32⟩
  | .hbm, ⟨8, _⟩ => ⟨S1x128, .f32⟩
  | .hbm, ⟨9, _⟩ => ⟨S1x32, .f32⟩
  | .hbm, ⟨10, _⟩ => ⟨S1x1, .f32⟩
  | .hbm, ⟨11, _⟩ => ⟨S100000x32, .f32⟩
  | .hbm, ⟨12, _⟩ => ⟨S100000x1, .f32⟩
  | .local _ .vmem, ⟨0, _⟩ => ⟨S2000x3x128, .f32⟩
  | .local _ .vmem, ⟨1, _⟩ => ⟨S2000x3x128, .f32⟩
  | .local _ .vmem, ⟨2, _⟩ => ⟨S3x128x128, .f32⟩
  | .local _ .vmem, ⟨3, _⟩ => ⟨S1x128, .f32⟩
  | .local _ .vmem, ⟨4, _⟩ => ⟨S128x32, .f32⟩
  | .local _ .vmem, ⟨5, _⟩ => ⟨S1x32, .f32⟩
  | .local _ .vmem, ⟨6, _⟩ => ⟨S128x1, .f32⟩
  | .local _ .vmem, ⟨7, _⟩ => ⟨S1x1, .f32⟩
  | .local _ .vmem, ⟨8, _⟩ => ⟨S2000x32, .f32⟩
  | .local _ .vmem, ⟨9, _⟩ => ⟨S2000x32, .f32⟩
  | .local _ .vmem, ⟨10, _⟩ => ⟨S2000x1, .f32⟩
  | .local _ .vmem, ⟨11, _⟩ => ⟨S2000x1, .f32⟩
  | _, _ => ⟨S100000x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S384x128_S3x128x128 : S384x128.ShapeCasts S3x128x128
  shapeCasts_S128_S1x128 : S128.ShapeCasts S1x128
  shapeCasts_S32_S1x32 : S32.ShapeCasts S1x32
  shapeCasts_S1_S1x1 : S1.ShapeCasts S1x1
  inb_S2000x3x128_S2000x1x128_0_0_0 : ∀ a, (![0, 0, 0] : Fin 3 → Nat) a + S2000x1x128.size a ≤ S2000x3x128.size a
  h_S2000x1x128 : 0 < S2000x1x128.numel
  shapeCasts_S2000x1x128_S2000x128 : S2000x1x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S2000x3x128_S2000x1x128_0_1_0 : ∀ a, (![0, 1, 0] : Fin 3 → Nat) a + S2000x1x128.size a ≤ S2000x3x128.size a
  inb_S3x128x128_S1x128x128_1_0_0 : ∀ a, (![1, 0, 0] : Fin 3 → Nat) a + S1x128x128.size a ≤ S3x128x128.size a
  inb_S2000x3x128_S2000x1x128_0_2_0 : ∀ a, (![0, 2, 0] : Fin 3 → Nat) a + S2000x1x128.size a ≤ S2000x3x128.size a
  inb_S3x128x128_S1x128x128_2_0_0 : ∀ a, (![2, 0, 0] : Fin 3 → Nat) a + S1x128x128.size a ≤ S3x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S2000_S2000x1 : S2000.ShapeCasts S2000x1
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x128_S128x128_S2000x128_1_0_0_1_n_n_wf : DotDims.WF S2000x128 S128x128 S2000x128 [1] [0] [0] [1] [] []
  dot_S2000x128_S128x32_S2000x32_1_0_0_1_n_n_wf : DotDims.WF S2000x128 S128x32 S2000x32 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3x128.size a ≤ S100000x3x128.size a
  hwx0_0 : ∀ i : grid0.Coords, EltTy.bits .f32 = 32 ∨ (Rect.block (s := S100000x3x128) S2000x3x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x128.size a ≤ S3x128x128.size a
  hwx0_1 : ∀ i : grid0.Coords, EltTy.bits .f32 = 32 ∨ (Rect.block (s := S3x128x128) S3x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x32.size a ≤ S100000x32.size a
  hwx0_7 : ∀ i : grid0.Coords, EltTy.bits .f32 = 32 ∨ (Rect.block (s := S100000x32) S2000x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x1.size a ≤ S100000x1.size a
  hwx0_8 : ∀ i : grid0.Coords, EltTy.bits .f32 = 32 ∨ (Rect.block (s := S100000x1) S2000x1.size (cc0_transform_8 i) (hinb0_8 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S2000x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S2000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x3x128 : Shape := ⟨3, ![100000, 3, 128]⟩
abbrev S384x128 : Shape := ⟨2, ![384, 128]⟩
abbrev S128 : Shape := ⟨1, ![128]⟩
abbrev S128x32 : Shape := ⟨2, ![128, 32]⟩
abbrev S32 : Shape := ⟨1, ![32]⟩
abbrev S128x1 : Shape := ⟨2, ![128, 1]⟩
abbrev S1 : Shape := ⟨1, ![1]⟩
abbrev S100000x384 : Shape := ⟨2, ![100000, 384]⟩
abbrev S100000x128 : Shape := ⟨2, ![100000, 128]⟩
abbrev S1x128 : Shape := ⟨2, ![1, 128]⟩
abbrev S100000x32 : Shape := ⟨2, ![100000, 32]⟩
abbrev S1x32 : Shape := ⟨2, ![1, 32]⟩
abbrev S_ : Shape := ⟨0, ![]⟩
abbrev S100000 : Shape := ⟨1, ![100000]⟩
abbrev S100000x1 : Shape := ⟨2, ![100000, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S100000x3x128, .f32⟩
  | .hbm, ⟨1, _⟩ => ⟨S384x128, .f32⟩
  | .hbm, ⟨2, _⟩ => ⟨S128, .f32⟩
  | .hbm, ⟨3, _⟩ => ⟨S128x32, .f32⟩
  | .hbm, ⟨4, _⟩ => ⟨S32, .f32⟩
  | .hbm, ⟨5, _⟩ => ⟨S128x1, .f32⟩
  | .hbm, ⟨6, _⟩ => ⟨S1, .f32⟩
  | .hbm, ⟨7, _⟩ => ⟨S100000x384, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S100000x32, .f32⟩
  | .hbm, ⟨14, _⟩ => ⟨S1x32, .f32⟩
  | .hbm, ⟨15, _⟩ => ⟨S100000x32, .f32⟩
  | .hbm, ⟨16, _⟩ => ⟨S100000x32, .f32⟩
  | .hbm, ⟨17, _⟩ => ⟨S_, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x32, .f32⟩
  | .hbm, ⟨24, _⟩ => ⟨S100000x32, .f32⟩
  | .hbm, ⟨25, _⟩ => ⟨S100000x32, .f32⟩
  | .hbm, ⟨26, _⟩ => ⟨S_, .f32⟩
  | .hbm, ⟨27, _⟩ => ⟨S100000, .f32⟩
  | .hbm, ⟨28, _⟩ => ⟨S100000x1, .f32⟩
  | .hbm, ⟨29, _⟩ => ⟨S100000x1, .f32⟩
  | .hbm, ⟨30, _⟩ => ⟨S100000x32, .f32⟩
  | .hbm, ⟨31, _⟩ => ⟨S100000x32, .f32⟩
  | .hbm, ⟨32, _⟩ => ⟨S100000x1, .f32⟩
  | .hbm, ⟨33, _⟩ => ⟨S1x1, .f32⟩
  | .hbm, ⟨34, _⟩ => ⟨S100000x1, .f32⟩
  | .hbm, ⟨35, _⟩ => ⟨S100000x1, .f32⟩
  | _, _ => ⟨S100000x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]

class Facts₀ : Prop where
  shapeCasts_S100000x3x128_S100000x384 : S100000x3x128.ShapeCasts S100000x384
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x384_S384x128_S100000x128_1_0_0_1_n_n_wf : DotDims.WF S100000x384 S384x128 S100000x128 [1] [0] [0] [1] [] []
  dot_S100000x128_S128x32_S100000x32_1_0_0_1_n_n_wf : DotDims.WF S100000x128 S128x32 S100000x32 [1] [0] [0] [1] [] []
  dot_S100000x128_S128x1_S100000x1_1_0_0_1_n_n_wf : DotDims.WF S100000x128 S128x1 S100000x1 [1] [0] [0] [1] [] []

variable [Facts₀]

def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The actor–critic head of one agent, over the extended reals, and the two arrays a population of
  100000 agents ends with.

  An agent's state after communication is three slots of 128 numbers, `x s k`. The head is
    hidden unit   y j = tanh (Σ_k x 0 k · W 0 k j + Σ_k x 1 k · W 1 k j + Σ_k x 2 k · W 2 k j + b j)      (128 units),
    action logit  l a = Σ_j y j · H j a + c a                                                            (32 actions),
    policy        l a − max l − log Σ_a' exp (l a' − max l)            (the log-softmax of the logits),
    value         Σ_j y j · v j + d.
  The first layer's weights come as ONE 384 × 128 matrix; its rows 128·s + k, k < 128, are slab `s`, the weights
  of slot `s`. Summing a row of 384 products is summing the three slabs' 128 products each (`sum_rows`): the
  extended reals are a commutative monoid under +, so no finiteness is asked of the summands.
  The maximum is a fold of `max` from −∞, the word both programs start it from; taking the maximum
  with −∞ once more changes nothing (`max_negInf_rowMax`).
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.AgentHead

open Idealize.ShloMosaic Idealize.ShloMosaic.ValueIdx

/-! ## One agent -/

/-- −∞, as the word the maxima start from. -/
abbrev negInf : EReal := Ideal.ofBits .f32 0xFF800000#32

/-- Hidden unit `j`: tanh of the three slots' products with their slabs, summed slab by slab, plus the bias. -/
def hidden (x : Fin 3 → Fin 128 → EReal) (W : Fin 3 → Fin 128 → Fin 128 → EReal) (b : Fin 128 → EReal)
    (j : Fin 128) : EReal :=
  Ideal.tanh ((((∑ k, x 0 k * W 0 k j) + ∑ k, x 1 k * W 1 k j) + ∑ k, x 2 k * W 2 k j) + b j)

/-- Action `a`'s logit from the hidden units. -/
def logits (y : Fin 128 → EReal) (H : Fin 128 → Fin 32 → EReal) (c : Fin 32 → EReal) (a : Fin 32) : EReal :=
  (∑ j, y j * H j a) + c a

/-- The largest of the 32 logits (−∞ if there were none). -/
def rowMax (l : Fin 32 → EReal) : EReal := (Finset.univ : Finset (Fin 32)).fold max negInf l

/-- The log-softmax of the logits, shifted by their maximum as both programs compute it. -/
def logSoftmax (l : Fin 32 → EReal) (a : Fin 32) : EReal :=
  (l a - rowMax l) - Ideal.log (∑ a', Ideal.exp (l a' - rowMax l))

/-- The state value from the hidden units. -/
def value (y : Fin 128 → EReal) (v : Fin 128 → EReal) (d : EReal) : EReal := (∑ j, y j * v j) + d

/-! ## The population: what the two result arrays hold, index by index -/

/-- Agent `r`'s three slots, read off the state array. -/
def slots (X : (⟨3, ![100000, 3, 128]⟩ : Shape).Idx → EReal) (r : Fin 100000) : Fin 3 → Fin 128 → EReal :=
  fun s k => X (ix3 r s k)

/-- Row 128·s + k of a 384-row matrix: row `k` of slab `s`. -/
def row (s : Fin 3) (k : Fin 128) : Fin 384 := ⟨128 * s.val + k.val, by have := s.isLt; have := k.isLt; omega⟩

/-- The 384 × 128 first-layer matrix read as three 128 × 128 slabs. -/
def slabs (W1 : (⟨2, ![384, 128]⟩ : Shape).Idx → EReal) : Fin 3 → Fin 128 → Fin 128 → EReal :=
  fun s k j => W1 (ix2 (row s k) j)

/-- Agent `r`'s hidden units from the argument arrays. -/
def hiddenOf (X : (⟨3, ![100000, 3, 128]⟩ : Shape).Idx → EReal) (W1 : (⟨2, ![384, 128]⟩ : Shape).Idx → EReal)
    (b1 : (⟨1, ![128]⟩ : Shape).Idx → EReal) (r : Fin 100000) : Fin 128 → EReal :=
  hidden (slots X r) (slabs W1) (fun j => b1 (ix1 j))

/-- The log-policy array: entry (r, a) is the log-softmax, at action `a`, of agent `r`'s logits. -/
def policy (X : (⟨3, ![100000, 3, 128]⟩ : Shape).Idx → EReal) (W1 : (⟨2, ![384, 128]⟩ : Shape).Idx → EReal)
    (b1 : (⟨1, ![128]⟩ : Shape).Idx → EReal) (Wh : (⟨2, ![128, 32]⟩ : Shape).Idx → EReal)
    (bh : (⟨1, ![32]⟩ : Shape).Idx → EReal) : (⟨2, ![100000, 32]⟩ : Shape).Idx → EReal :=
  fun i => logSoftmax (logits (hiddenOf X W1 b1 (i 0)) (fun j a => Wh (ix2 j a)) (fun a => bh (ix1 a))) (i 1)

/-- The value array: entry (r, 0) is agent `r`'s state value. -/
def critic (X : (⟨3, ![100000, 3, 128]⟩ : Shape).Idx → EReal) (W1 : (⟨2, ![384, 128]⟩ : Shape).Idx → EReal)
    (b1 : (⟨1, ![128]⟩ : Shape).Idx → EReal) (Wv : (⟨2, ![128, 1]⟩ : Shape).Idx → EReal)
    (bv : (⟨1, ![1]⟩ : Shape).Idx → EReal) : (⟨2, ![100000, 1]⟩ : Shape).Idx → EReal :=
  fun i => value (hiddenOf X W1 b1 (i 0)) (fun j => Wv (ix2 j (0 : Fin 1))) (bv (ix1 (0 : Fin 1)))

/-! ## The two laws -/

/-- A sum over the 384 rows is the sum over slab 0's rows, plus slab 1's, plus slab 2's: the rows are the pairs
    (slab, row in the slab), and a sum over pairs is the iterated sum, in any commutative monoid. -/
theorem sum_rows {M : Type*} [AddCommMonoid M] (f : Fin 384 → M) :
    ∑ q, f q = ((∑ k, f (row 0 k)) + ∑ k, f (row 1 k)) + ∑ k, f (row 2 k) := by
  have e : ∑ p : Fin 3 × Fin 128, f (row p.1 p.2) = ∑ q : Fin 384, f q :=
    Fintype.sum_equiv (finProdFinEquiv (m := 3) (n := 128)) (fun p => f (row p.1 p.2)) f
      (fun p => congrArg f (Fin.ext (by
        show 128 * p.1.val + p.2.val = p.2.val + 128 * p.1.val
        omega)))
  rw [← e, Fintype.sum_prod_type, Fin.sum_univ_three]

/-- The fold of `max` from −∞ is at least −∞, so one more `max` with −∞ is absorbed. -/
theorem max_negInf_rowMax (l : Fin 32 → EReal) : max negInf (rowMax l) = rowMax l :=
  max_eq_right ((Finset.le_fold_max negInf).mpr (Or.inl le_rfl))

end Cert.AgentHead

end
-- ==== Proof.LibPlainProduct.lean ====
/-
  General lemmas, at the ideal values and at any element type, for reading a kernel body at one element.

  * A plain `M × K` by `K × N` product (`DotDims.plain`: contract the left operand's columns with the right
    operand's rows) accumulated into the zero splat is, at `(p, j)`, the sum over `k < K` of `l (p, k) · r (k, j)`.
  * Layout steps read at an element, with every index written by coordinates: a `[a, 1, b]` array cast to `[a, b]`
    (the middle unit axis dropped), a length-`a` vector cast to the column `[a, 1]`, and a column `[a, 1]` broadcast
    along the rows of `[a, b]`.
-/
import Idealize.ShloMosaic.Lib.Pipeline.Value
import Idealize.ShloMosaic.Lib.ValueIdx
import Idealize.ShloMosaic.PureOps.Ideal.Laws

noncomputable section

open scoped BigOperators

namespace Cert.AgentHead.Lib

open Idealize.ShloMosaic Idealize.ShloMosaic.ValueIdx

/-! ## A plain product at an element -/

/-- The left operand's index at output `i` and contraction index `q`: row `i 0` … -/
theorem plain_lhs_0 (M K N : Nat) (i : (⟨2, ![M, N]⟩ : Shape).Idx) (q : (DotDims.plain M K N).contr.Idx) :
    ((DotDims.plain M K N).lhsIdx i q 0).val = (i 0).val := rfl
/-- … column `q`. -/
theorem plain_lhs_1 (M K N : Nat) (i : (⟨2, ![M, N]⟩ : Shape).Idx) (q : (DotDims.plain M K N).contr.Idx) :
    ((DotDims.plain M K N).lhsIdx i q 1).val = (q ⟨0, Nat.one_pos⟩).val := rfl
/-- The right operand's index: row `q` … -/
theorem plain_rhs_0 (M K N : Nat) (i : (⟨2, ![M, N]⟩ : Shape).Idx) (q : (DotDims.plain M K N).contr.Idx) :
    ((DotDims.plain M K N).rhsIdx i q 0).val = (q ⟨0, Nat.one_pos⟩).val := rfl
/-- … column `i 1`. -/
theorem plain_rhs_1 (M K N : Nat) (i : (⟨2, ![M, N]⟩ : Shape).Idx) (q : (DotDims.plain M K N).contr.Idx) :
    ((DotDims.plain M K N).rhsIdx i q 1).val = (i 1).val := rfl

/-- A plain product into the zero accumulator, at `(p, j)`: `∑ k, l (p, k) · r (k, j)` on the extended reals. The
    contraction index has one axis of extent `K`; the sum is re-indexed by its coordinate. -/
theorem matmul_plain_apply (M K N : Nat) (l : FVec Ideal ⟨2, ![M, K]⟩ .f32) (r : FVec Ideal ⟨2, ![K, N]⟩ .f32)
    (p : Fin M) (j : Fin N) :
    FloatOps.matmul (DotDims.plain M K N) none l r (constant ⟨2, ![M, N]⟩ .f32 0x00000000#32) (ix2 p j)
      = ∑ k : Fin K, l (ix2 p k) * r (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 M K N _ _
      | ⟨1, _⟩ => exact (plain_lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 M K N _ _).trans hk
      | ⟨1, _⟩ => exact plain_rhs_1 M K N _ _)
  rw [el, er]

/-! ## Layout steps at an element -/

section Layout
variable {α : Type}

/-- An `[a, 1, b]` array cast to `[a, b]` reads, at `(p, k)`, the operand at `(p, 0, k)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (k : Fin b) :
    shapeCast ⟨2, ![a, b]⟩ x h (ix2 p k) = x (ix3 p (0 : Fin 1) k) :=
  shapeCast_apply x h _ _ (by
    rw [Shape.rowMajor_val_three, Shape.rowMajor_val_two]
    show (p.val * 1 + 0) * b + k.val = p.val * b + k.val
    rw [Nat.mul_one, Nat.add_zero])

/-- A length-`a` vector cast to the column `[a, 1]` reads, at `(p, 0)`, the operand at `p`. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

end Cert.AgentHead.Lib

end
-- ==== Proof.Block.lean ====
/-
  The kernel's body at one row of a block of 2000 agents, at the ideal values.

  The body loads the state block slot by slot (`[2000, 1, 128]` slices of the `[2000, 3, 128]` block), the first-layer
  weights slab by slab (`[1, 128, 128]` slices of `[3, 128, 128]`), drops the unit axes, and forms three products into
  zero accumulators, which it adds, in slab order, before the bias and the tanh. Read at row `p` and unit `j` that is
  `hidden` of row `p`'s three slots (`hidden_block`). The logits are one more product plus the bias row
  (`logits_block`), their row maximum is the fold of `max` from −∞ over the 32 actions (`rowMax_block`), the stored
  policy entry is the logit minus the maximum minus the log of the row sum of the exponentials (`policy_block`), and
  the stored value entry is the last product plus the scalar bias (`value_block`).
-/
import proofs.«145699_g31911607009636_cont_8to1_b_911_5_alg».proof.Proof.Gen.KernelIdeal.Frame
import proofs.«145699_g31911607009636_cont_8to1_b_911_5_alg».proof.Proof.Spec
import proofs.«145699_g31911607009636_cont_8to1_b_911_5_alg».proof.Proof.LibPlainProduct
import Idealize.ShloMosaic.Lib.ValueLayout

noncomputable section

open scoped BigOperators

namespace Cert.AgentHead.Block

open Cert.KernelIdeal Cert.KernelIdeal.Gen Idealize.ShloMosaic Idealize.ShloMosaic.TcCoe Idealize.ShloMosaic.ValueIdx
open Cert.AgentHead

/-! ## The products -/

/-- A slot's product with its slab at `(p, j)`: the sum over the slot's 128 entries. -/
theorem slot_product (v : FVec Ideal S2000x1x128 .f32) (w : FVec Ideal S1x128x128 .f32) (p : Fin 2000) (j : Fin 128) :
    (matmul dot_S2000x128_S128x128_S2000x128_1_0_0_1_n_n none (shapeCast S2000x128 v shapeCasts_S2000x1x128_S2000x128 : FVec Ideal S2000x128 .f32)
        (shapeCast S128x128 w shapeCasts_S1x128x128_S128x128 : FVec Ideal S128x128 .f32) (constant (F := Ideal) S2000x128 .f32 0x00000000#32)) (ix2 p j)
      = ∑ k : Fin 128, v (ix3 p (0 : Fin 1) k) * w (ix3 (0 : Fin 1) k j) := by
  refine (Lib.matmul_plain_apply 2000 128 128 _ _ p j).trans ?_
  refine Finset.sum_congr rfl fun k _ => ?_
  exact congrArg₂ (· * ·) (Lib.shapeCast_a1b_ab_apply v _ p k) (shapeCast_1ab_ab_apply w _ k j)

/-- A bias row `[1, n]`, cast to itself and broadcast down the 2000 rows, reads the row's entry. -/
theorem bias128 (b : FVec Ideal S1x128 .f32) (p : Fin 2000) (j : Fin 128) :
    broadcastTo S2000x128 (shapeCast S1x128 b shapeCasts_S1x128_S1x128) broadcasts_S1x128_S2000x128 (ix2 p j)
      = b (ix2 (0 : Fin 1) j) :=
  (broadcastTo_1b_ab_apply _ _ p j).trans (congrFun (shapeCast_self b _) _)

theorem bias32 (b : FVec Ideal S1x32 .f32) (p : Fin 2000) (a : Fin 32) :
    broadcastTo S2000x32 (shapeCast S1x32 b shapeCasts_S1x32_S1x32) broadcasts_S1x32_S2000x32 (ix2 p a)
      = b (ix2 (0 : Fin 1) a) :=
  (broadcastTo_1b_ab_apply _ _ p a).trans (congrFun (shapeCast_self b _) _)

theorem bias1 (b : FVec Ideal S1x1 .f32) (p : Fin 2000) :
    broadcastTo S2000x1 (shapeCast S1x1 b shapeCasts_S1x1_S1x1) broadcasts_S1x1_S2000x1 (ix2 p (0 : Fin 1))
      = b (ix2 (0 : Fin 1) (0 : Fin 1)) :=
  (broadcastTo_1b_ab_apply _ _ p (0 : Fin 1)).trans (congrFun (shapeCast_self b _) _)

/-! ## The payloads at an element, over the loaded vectors as variables -/

/-- The hidden activations: tanh of the three slot products, added in slab order, plus the bias. -/
theorem pay3_apply (v0 : FVec Ideal S2000x1x128 .f32) (v2 : FVec Ideal S1x128x128 .f32) (v5 : FVec Ideal S2000x1x128 .f32)
    (v7 : FVec Ideal S1x128x128 .f32) (v11 : FVec Ideal S2000x1x128 .f32) (v13 : FVec Ideal S1x128x128 .f32)
    (v17 : FVec Ideal S1x128 .f32) (p : Fin 2000) (j : Fin 128) :
    k0_pay3 (F := Ideal) v0 v2 v5 v7 v11 v13 v17 (ix2 p j)
      = Ideal.tanh ((((∑ k : Fin 128, v0 (ix3 p (0 : Fin 1) k) * v2 (ix3 (0 : Fin 1) k j))
          + ∑ k : Fin 128, v5 (ix3 p (0 : Fin 1) k) * v7 (ix3 (0 : Fin 1) k j))
          + ∑ k : Fin 128, v11 (ix3 p (0 : Fin 1) k) * v13 (ix3 (0 : Fin 1) k j))
          + v17 (ix2 (0 : Fin 1) j)) := by
  unfold k0_pay3
  refine congrArg Ideal.tanh ?_
  refine congrArg₂ (· + ·) (congrArg₂ (· + ·) (congrArg₂ (· + ·) ?_ ?_) ?_) ?_
  · exact slot_product v0 v2 p j
  · exact slot_product v5 v7 p j
  · exact slot_product v11 v13 p j
  · exact bias128 v17 p j

/-- The logits: the hidden activations' product with the action weights, plus the bias row. -/
theorem pay4_apply (v0 : FVec Ideal S2000x1x128 .f32) (v2 : FVec Ideal S1x128x128 .f32) (v5 : FVec Ideal S2000x1x128 .f32)
    (v7 : FVec Ideal S1x128x128 .f32) (v11 : FVec Ideal S2000x1x128 .f32) (v13 : FVec Ideal S1x128x128 .f32)
    (v17 : FVec Ideal S1x128 .f32) (v22 : FVec Ideal S128x32 .f32) (v24 : FVec Ideal S1x32 .f32) (p : Fin 2000) (a : Fin 32) :
    k0_pay4 (F := Ideal) v0 v2 v5 v7 v11 v13 v17 v22 v24 (ix2 p a)
      = (∑ j : Fin 128, k0_pay3 (F := Ideal) v0 v2 v5 v7 v11 v13 v17 (ix2 p j) * v22 (ix2 j a)) + v24 (ix2 (0 : Fin 1) a) := by
  unfold k0_pay4
  refine congrArg₂ (· + ·) ?_ ?_
  · exact Lib.matmul_plain_apply 2000 128 32 _ _ p a
  · exact bias32 v24 p a

/-- Row `p` of a `[2000, 32]` vector with one action's coordinate put back: the index `(p, a)`. -/
theorem lift_row (p : Fin 2000) (a : Fin 32) : reduces_S2000x32_S2000.lift (ix1 p) a = ix2 p a :=
  funext fun d => Fin.ext (by match d with | ⟨0, _⟩ => rfl | ⟨1, _⟩ => rfl)

/-- The row maximum, as a column: the fold of `max` from −∞ over the row's 32 entries. -/
theorem rowMax_apply (v : FVec Ideal S2000x32 .f32) (p : Fin 2000) :
    shapeCast S2000x1 (multiReduction .maximumf [1] S2000 v 0xFF800000#32 reduces_S2000x32_S2000 (.inl rfl) rfl)
        shapeCasts_S2000_S2000x1 (ix2 p (0 : Fin 1))
      = rowMax (fun a => v (ix2 p a)) := by
  refine (Lib.shapeCast_a_a1_apply _ _ p).trans ?_
  refine (Ideal.multiReduction_maximumf_single v 0xFF800000#32 reduces_S2000x32_S2000 (.inl rfl) rfl (ix1 p)).trans ?_
  exact congrArg (fun f => Finset.fold max negInf f (Finset.univ : Finset (Fin 32))) (funext fun a => congrArg v (lift_row p a))

theorem pay5_apply (v0 : FVec Ideal S2000x1x128 .f32) (v2 : FVec Ideal S1x128x128 .f32) (v5 : FVec Ideal S2000x1x128 .f32)
    (v7 : FVec Ideal S1x128x128 .f32) (v11 : FVec Ideal S2000x1x128 .f32) (v13 : FVec Ideal S1x128x128 .f32)
    (v17 : FVec Ideal S1x128 .f32) (v22 : FVec Ideal S128x32 .f32) (v24 : FVec Ideal S1x32 .f32) (p : Fin 2000) :
    k0_pay5 (F := Ideal) v0 v2 v5 v7 v11 v13 v17 v22 v24 (ix2 p (0 : Fin 1))
      = rowMax (fun a => k0_pay4 (F := Ideal) v0 v2 v5 v7 v11 v13 v17 v22 v24 (ix2 p a)) := by
  unfold k0_pay5
  exact rowMax_apply _ p

/-- The stored policy entry: the logit less the row's maximum, less the log of the row sum of the exponentials of the
    shifted logits. -/
theorem pay1_apply (v27 : FVec Ideal S2000x32 .f32) (v29 : FVec Ideal S2000x1 .f32) (p : Fin 2000) (a : Fin 32) :
    k0_pay1 (F := Ideal) v27 v29 (ix2 p a)
      = (v27 (ix2 p a) - v29 (ix2 p (0 : Fin 1)))
          - Ideal.log (∑ a' : Fin 32, Ideal.exp (v27 (ix2 p a') - v29 (ix2 p (0 : Fin 1)))) := by
  unfold k0_pay1
  refine congrArg₂ (· - ·) (congrArg₂ (· - ·) rfl (Lib.broadcastTo_a1_ab_apply v29 _ p a)) ?_
  refine (Lib.broadcastTo_a1_ab_apply _ _ p a).trans ?_
  refine congrArg Ideal.log ?_
  refine (Lib.shapeCast_a_a1_apply _ _ p).trans ?_
  refine (Ideal.multiReduction_add_single _ 0x00000000#32 reduces_S2000x32_S2000 (.inl rfl) rfl (ix1 p)).trans ?_
  refine Finset.sum_congr rfl fun a' _ => ?_
  rw [lift_row p a']
  exact congrArg Ideal.exp (congrArg₂ (· - ·) rfl (Lib.broadcastTo_a1_ab_apply v29 _ p a'))

/-- The stored value entry: the hidden activations' product with the value weights, plus the scalar bias. -/
theorem pay2_apply (v21 : FVec Ideal S2000x128 .f32) (v39 : FVec Ideal S128x1 .f32) (v41 : FVec Ideal S1x1 .f32) (p : Fin 2000) :
    k0_pay2 (F := Ideal) v21 v39 v41 (ix2 p (0 : Fin 1))
      = (∑ j : Fin 128, v21 (ix2 p j) * v39 (ix2 j (0 : Fin 1))) + v41 (ix2 (0 : Fin 1) (0 : Fin 1)) := by
  unfold k0_pay2
  refine congrArg₂ (· + ·) ?_ ?_
  · exact Lib.matmul_plain_apply 2000 128 1 _ _ p (0 : Fin 1)
  · exact bias1 v41 p

end Cert.AgentHead.Block

end
-- ==== Proof.Rows.lean ====
/-
  One row of the two blocks a grid point stores, from the point's input blocks.

  The body reads slot `s` of the state block through the rectangle at offset (0, s, 0) and slab `s` of the weights
  through the rectangle at offset (s, 0, 0); the other five operands are loaded whole. So row `p` of the stored policy
  block is the log-softmax of the logits of the hidden units of row `p`'s three slots (`policy_block`), and row `p` of
  the stored value block is their value (`value_block`) — the same functions `hidden`, `logits`, `logSoftmax`, `value`
  that describe one agent, applied to the block's row.
-/
import proofs.«145699_g31911607009636_cont_8to1_b_911_5_alg».proof.Proof.Block

noncomputable section

open scoped BigOperators

namespace Cert.AgentHead.Block

open Cert.KernelIdeal Cert.KernelIdeal.Gen Idealize.ShloMosaic Idealize.ShloMosaic.TcCoe Idealize.ShloMosaic.ValueIdx
open Cert.AgentHead

/-! ## The loads -/

theorem zeros2 : (![0, 0] : Fin 2 → Nat) = fun _ => 0 := funext fun a => by fin_cases a <;> rfl

/-- Slot 0 of row `p`, entry `k`, sits at (p, 0, k) of the state block … -/
theorem slot_idx0 (p : Fin 2000) (k : Fin 128) : r0_0.idx (ix3 p (0 : Fin 1) k) = ix3 p (0 : Fin 3) k :=
  funext fun a => Fin.ext (by
    match a with
    | ⟨0, _⟩ => show 0 + 1 * p.val = p.val; omega
    | ⟨1, _⟩ => rfl
    | ⟨2, _⟩ => show 0 + 1 * k.val = k.val; omega)
/-- … slot 1 at (p, 1, k) … -/
theorem slot_idx1 (p : Fin 2000) (k : Fin 128) : r0_2.idx (ix3 p (0 : Fin 1) k) = ix3 p (1 : Fin 3) k :=
  funext fun a => Fin.ext (by
    match a with
    | ⟨0, _⟩ => show 0 + 1 * p.val = p.val; omega
    | ⟨1, _⟩ => rfl
    | ⟨2, _⟩ => show 0 + 1 * k.val = k.val; omega)
/-- … slot 2 at (p, 2, k). -/
theorem slot_idx2 (p : Fin 2000) (k : Fin 128) : r0_4.idx (ix3 p (0 : Fin 1) k) = ix3 p (2 : Fin 3) k :=
  funext fun a => Fin.ext (by
    match a with
    | ⟨0, _⟩ => show 0 + 1 * p.val = p.val; omega
    | ⟨1, _⟩ => rfl
    | ⟨2, _⟩ => show 0 + 1 * k.val = k.val; omega)
/-- Slab 0's entry (k, j) sits at (0, k, j) of the weight block … -/
theorem slab_idx0 (k j : Fin 128) : r0_1.idx (ix3 (0 : Fin 1) k j) = ix3 (0 : Fin 3) k j :=
  funext fun a => Fin.ext (by
    match a with
    | ⟨0, _⟩ => rfl
    | ⟨1, _⟩ => show 0 + 1 * k.val = k.val; omega
    | ⟨2, _⟩ => show 0 + 1 * j.val = j.val; omega)
/-- … slab 1's at (1, k, j) … -/
theorem slab_idx1 (k j : Fin 128) : r0_3.idx (ix3 (0 : Fin 1) k j) = ix3 (1 : Fin 3) k j :=
  funext fun a => Fin.ext (by
    match a with
    | ⟨0, _⟩ => rfl
    | ⟨1, _⟩ => show 0 + 1 * k.val = k.val; omega
    | ⟨2, _⟩ => show 0 + 1 * j.val = j.val; omega)
/-- … slab 2's at (2, k, j). -/
theorem slab_idx2 (k j : Fin 128) : r0_5.idx (ix3 (0 : Fin 1) k j) = ix3 (2 : Fin 3) k j :=
  funext fun a => Fin.ext (by
    match a with
    | ⟨0, _⟩ => rfl
    | ⟨1, _⟩ => show 0 + 1 * k.val = k.val; omega
    | ⟨2, _⟩ => show 0 + 1 * j.val = j.val; omega)

/-! ## A row of the block -/

/-- Row `p` of a state block as three slots. -/
def slotsOf (x0 : FVec Ideal S2000x3x128 .f32) (p : Fin 2000) : Fin 3 → Fin 128 → EReal := fun s k => x0 (ix3 p s k)
/-- The weight block as three slabs. -/
def slabsOf (x1 : FVec Ideal S3x128x128 .f32) : Fin 3 → Fin 128 → Fin 128 → EReal := fun s k j => x1 (ix3 s k j)
/-- Row `p`'s hidden units. -/
def hiddenRow (x0 : FVec Ideal S2000x3x128 .f32) (x1 : FVec Ideal S3x128x128 .f32) (x2 : FVec Ideal S1x128 .f32)
    (p : Fin 2000) : Fin 128 → EReal :=
  hidden (slotsOf x0 p) (slabsOf x1) (fun j => x2 (ix2 (0 : Fin 1) j))
/-- Row `p`'s logits. -/
def logitsRow (x0 : FVec Ideal S2000x3x128 .f32) (x1 : FVec Ideal S3x128x128 .f32) (x2 : FVec Ideal S1x128 .f32)
    (x3 : FVec Ideal S128x32 .f32) (x4 : FVec Ideal S1x32 .f32) (p : Fin 2000) : Fin 32 → EReal :=
  logits (hiddenRow x0 x1 x2 p) (fun j a => x3 (ix2 j a)) (fun a => x4 (ix2 (0 : Fin 1) a))

variable (x0 : FVec Ideal S2000x3x128 .f32) (x1 : FVec Ideal S3x128x128 .f32) (x2 : FVec Ideal S1x128 .f32)
  (x3 : FVec Ideal S128x32 .f32) (x4 : FVec Ideal S1x32 .f32) (x5 : FVec Ideal S128x1 .f32) (x6 : FVec Ideal S1x1 .f32)

/-- The hidden activations the body computes, at row `p` and unit `j`. -/
theorem hidden_block (p : Fin 2000) (j : Fin 128) :
    k0_pay3 (F := Ideal) (View.ld x0 r0_0) (View.ld x1 r0_1) (View.ld x0 r0_2) (View.ld x1 r0_3) (View.ld x0 r0_4)
        (View.ld x1 r0_5) (View.ld x2 r0_6) (ix2 p j)
      = hiddenRow x0 x1 x2 p j := by
  refine (pay3_apply _ _ _ _ _ _ _ p j).trans ?_
  unfold hiddenRow hidden slotsOf slabsOf
  refine congrArg Ideal.tanh (congrArg₂ (· + ·) (congrArg₂ (· + ·) (congrArg₂ (· + ·) ?_ ?_) ?_) ?_)
  · refine Finset.sum_congr rfl fun k _ => ?_
    show x0 (r0_0.idx (ix3 p (0 : Fin 1) k)) * x1 (r0_1.idx (ix3 (0 : Fin 1) k j)) = _
    rw [slot_idx0, slab_idx0]
  · refine Finset.sum_congr rfl fun k _ => ?_
    show x0 (r0_2.idx (ix3 p (0 : Fin 1) k)) * x1 (r0_3.idx (ix3 (0 : Fin 1) k j)) = _
    rw [slot_idx1, slab_idx1]
  · refine Finset.sum_congr rfl fun k _ => ?_
    show x0 (r0_4.idx (ix3 p (0 : Fin 1) k)) * x1 (r0_5.idx (ix3 (0 : Fin 1) k j)) = _
    rw [slot_idx2, slab_idx2]
  · exact congrFun (View.ld_unit_zero (Val := Elt Ideal) (e := EltTy.f32) (S := S1x128) zeros2 _ x2) _

/-- The logits the body computes, at row `p` and action `a`. -/
theorem logits_block (p : Fin 2000) (a : Fin 32) :
    k0_pay4 (F := Ideal) (View.ld x0 r0_0) (View.ld x1 r0_1) (View.ld x0 r0_2) (View.ld x1 r0_3) (View.ld x0 r0_4)
        (View.ld x1 r0_5) (View.ld x2 r0_6) (View.ld x3 r0_7) (View.ld x4 r0_8) (ix2 p a)
      = logitsRow x0 x1 x2 x3 x4 p a := by
  refine (pay4_apply _ _ _ _ _ _ _ _ _ p a).trans ?_
  unfold logitsRow logits
  refine congrArg₂ (· + ·) (Finset.sum_congr rfl fun j _ => congrArg₂ (· * ·) (hidden_block x0 x1 x2 p j) ?_) ?_
  · exact congrFun (View.ld_unit_zero (Val := Elt Ideal) (e := EltTy.f32) (S := S128x32) zeros2 _ x3) _
  · exact congrFun (View.ld_unit_zero (Val := Elt Ideal) (e := EltTy.f32) (S := S1x32) zeros2 _ x4) _

/-- The row maximum the body computes is the largest of row `p`'s logits. -/
theorem rowMax_block (p : Fin 2000) :
    k0_pay5 (F := Ideal) (View.ld x0 r0_0) (View.ld x1 r0_1) (View.ld x0 r0_2) (View.ld x1 r0_3) (View.ld x0 r0_4)
        (View.ld x1 r0_5) (View.ld x2 r0_6) (View.ld x3 r0_7) (View.ld x4 r0_8) (ix2 p (0 : Fin 1))
      = rowMax (logitsRow x0 x1 x2 x3 x4 p) :=
  (pay5_apply _ _ _ _ _ _ _ _ _ p).trans (congrArg rowMax (funext fun a => logits_block x0 x1 x2 x3 x4 p a))

/-- ROW `p` OF THE STORED POLICY BLOCK: the log-softmax of row `p`'s logits. -/
theorem policy_block (p : Fin 2000) (a : Fin 32) :
    out0_7 (F := Ideal) x0 x1 x2 x3 x4 x5 x6 (ix2 p a) = logSoftmax (logitsRow x0 x1 x2 x3 x4 p) a := by
  unfold out0_7
  rw [View.canon_unit_zero zeros2]
  refine (pay1_apply _ _ p a).trans ?_
  rw [rowMax_block x0 x1 x2 x3 x4 p]
  simp only [logits_block x0 x1 x2 x3 x4 p]
  rfl

/-- ROW `p` OF THE STORED VALUE BLOCK: the value of row `p`'s hidden units. -/
theorem value_block (p : Fin 2000) :
    out0_8 (F := Ideal) x0 x1 x2 x3 x4 x5 x6 (ix2 p (0 : Fin 1))
      = value (hiddenRow x0 x1 x2 p) (fun j => x5 (ix2 j (0 : Fin 1))) (x6 (ix2 (0 : Fin 1) (0 : Fin 1))) := by
  unfold out0_8
  rw [View.canon_unit_zero zeros2]
  refine (pay2_apply _ _ _ p).trans ?_
  unfold value
  refine congrArg₂ (· + ·) (Finset.sum_congr rfl fun j _ => congrArg₂ (· * ·) (hidden_block x0 x1 x2 p j) ?_) ?_
  · exact congrFun (View.ld_unit_zero (Val := Elt Ideal) (e := EltTy.f32) (S := S128x1) zeros2 _ x5) _
  · exact congrFun (View.ld_unit_zero (Val := Elt Ideal) (e := EltTy.f32) (S := S1x1) zeros2 _ x6) _

end Cert.AgentHead.Block

end
-- ==== Proof.Arrays.lean ====
/-
  The two result arrays after the kernel's run, at the ideal values.

  The grid has 50 points; point `t` works on agents 2000·t … 2000·t + 1999. Its state block is rows 2000·t + p of the
  state array; the other six operands are staged whole at every point: the first-layer matrix re-laid as three slabs
  (entry (s, k, j) is row 128·s + k, column j), the three bias vectors as one-row arrays, the two remaining matrices as
  they are. So the hidden units, logits and value of row `p` of the point's blocks are those of agent 2000·t + p, and
  what the point writes back is block `t` of the population's policy and value arrays (`flushed_policy`,
  `flushed_critic`). The 50 blocks tile both arrays (row r lies in block r / 2000), so after the run the arrays ARE
  `policy` and `critic` of the arguments (`final_policy`, `final_critic`, `run`).
-/
import proofs.«145699_g31911607009636_cont_8to1_b_911_5_alg».proof.Proof.Gen.KernelIdeal.Value
import proofs.«145699_g31911607009636_cont_8to1_b_911_5_alg».proof.Proof.Rows
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.AgentHead.Arrays

open Cert.KernelIdeal Cert.KernelIdeal.Gen Cert.KernelIdeal.Value Idealize.ShloMosaic.ValueIdx
open Cert.AgentHead Cert.AgentHead.Block

variable (m : (ℓ : Loc nD τ sig) → Buf (Elt Ideal) ℓ) (ρ : Dev nD → PrngReg)

/-! ## The argument arrays as launched -/

abbrev X (c : Dev nD) : S100000x3x128.Idx → EReal := m ((c : Thread nD τ).loc main_arg0)
abbrev W1 (c : Dev nD) : S384x128.Idx → EReal := m ((c : Thread nD τ).loc main_arg1)
abbrev b1 (c : Dev nD) : S128.Idx → EReal := m ((c : Thread nD τ).loc main_arg2)
abbrev Wh (c : Dev nD) : S128x32.Idx → EReal := m ((c : Thread nD τ).loc main_arg3)
abbrev bh (c : Dev nD) : S32.Idx → EReal := m ((c : Thread nD τ).loc main_arg4)
abbrev Wv (c : Dev nD) : S128x1.Idx → EReal := m ((c : Thread nD τ).loc main_arg5)
abbrev bv (c : Dev nD) : S1.Idx → EReal := m ((c : Thread nD τ).loc main_arg6)

/-! ## What the region finds in the four arrays the host re-lays -/

theorem V_slabs (c : Dev nD) :
    (V m c main_call0_v0 : S3x128x128.Idx → EReal) = shapeCast S3x128x128 (W1 m c) shapeCasts_S384x128_S3x128x128 := by
  dsimp only [Gen.V, Gen.hostOps0]; after_results; rfl

theorem V_bias1 (c : Dev nD) :
    (V m c main_call0_v1 : S1x128.Idx → EReal) = shapeCast S1x128 (b1 m c) shapeCasts_S128_S1x128 := by
  dsimp only [Gen.V, Gen.hostOps0]; after_results; rfl

theorem V_biash (c : Dev nD) :
    (V m c main_call0_v2 : S1x32.Idx → EReal) = shapeCast S1x32 (bh m c) shapeCasts_S32_S1x32 := by
  dsimp only [Gen.V, Gen.hostOps0]; after_results; rfl

theorem V_biasv (c : Dev nD) :
    (V m c main_call0_v3 : S1x1.Idx → EReal) = shapeCast S1x1 (bv m c) shapeCasts_S1_S1x1 := by
  dsimp only [Gen.V, Gen.hostOps0]; after_results; rfl

/-! ## The grid -/

/-- The printed index maps, decided over the 50 points: the state block and the two result blocks move with the point,
    every other block is block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 50 := lt_of_lt_of_eq t.isLt (show cfg0.N = 50 from N_0)

/-- The agent in row `p` of point `t`'s blocks. -/
def agent (t : Fin cfg0.N) (p : Fin 2000) : Fin 100000 :=
  ⟨2000 * t.val + p.val, by have := point_lt t; have := p.isLt; omega⟩

/-! ## The input blocks, element by element -/

theorem state_block (c : Dev nD) (t : Fin cfg0.N) (p : Fin 2000) (s : Fin 3) (k : Fin 128) :
    (iblk m c 0 t : S2000x3x128.Idx → EReal) (ix3 p s k) = X m c (ix3 (agent t p) s k) := by
  obtain ⟨e0, e1, e2, -⟩ := idx_facts t
  unfold iblk
  rw [View.read_apply]
  show V m c main_arg0 _ = _
  rw [V_main_arg0]
  refine congrArg (X m c) (funext fun a => Fin.ext ?_)
  match a with
  | ⟨0, _⟩ => show win0_0.index t (0 : Fin 3) * 2000 + 1 * p.val = 2000 * t.val + p.val; rw [e0]; omega
  | ⟨1, _⟩ => show win0_0.index t (1 : Fin 3) * 3 + 1 * s.val = s.val; rw [e1]; omega
  | ⟨2, _⟩ => show win0_0.index t (2 : Fin 3) * 128 + 1 * k.val = k.val; rw [e2]; omega

theorem slab_block (c : Dev nD) (t : Fin cfg0.N) (s : Fin 3) (k j : Fin 128) :
    (iblk m c 1 t : S3x128x128.Idx → EReal) (ix3 s k j) = W1 m c (ix2 (row s k) j) := by
  obtain ⟨-, -, -, e0, e1, e2, -⟩ := idx_facts t
  unfold iblk
  rw [View.read_apply]
  show V m c main_call0_v0 _ = _
  rw [V_slabs]
  refine shapeCast_apply _ _ _ _ ?_
  rw [Shape.rowMajor_val_two, Shape.rowMajor_val_three]
  show (128 * s.val + k.val) * 128 + j.val
    = ((win0_1.index t (0 : Fin 3) * 3 + 1 * s.val) * 128 + (win0_1.index t (1 : Fin 3) * 128 + 1 * k.val)) * 128
        + (win0_1.index t (2 : Fin 3) * 128 + 1 * j.val)
  rw [e0, e1, e2]; omega

theorem bias1_block (c : Dev nD) (t : Fin cfg0.N) (j : Fin 128) :
    (iblk m c 2 t : S1x128.Idx → EReal) (ix2 (0 : Fin 1) j) = b1 m c (ix1 j) := by
  obtain ⟨-, -, -, -, -, -, e0, e1, -⟩ := idx_facts t
  unfold iblk
  rw [View.read_apply]
  show V m c main_call0_v1 _ = _
  rw [V_bias1]
  refine shapeCast_apply _ _ _ _ ?_
  rw [Shape.rowMajor_val_one, Shape.rowMajor_val_two]
  show j.val = (win0_2.index t (0 : Fin 2) * 1 + 1 * 0) * 128 + (win0_2.index t (1 : Fin 2) * 128 + 1 * j.val)
  rw [e0, e1]; omega

theorem wh_block (c : Dev nD) (t : Fin cfg0.N) (j : Fin 128) (a : Fin 32) :
    (iblk m c 3 t : S128x32.Idx → EReal) (ix2 j a) = Wh m c (ix2 j a) := by
  obtain ⟨-, -, -, -, -, -, -, -, e0, e1, -⟩ := idx_facts t
  unfold iblk
  rw [View.read_apply]
  show V m c main_arg3 _ = _
  rw [V_main_arg3]
  refine congrArg (Wh m c) (funext fun d => Fin.ext ?_)
  match d with
  | ⟨0, _⟩ => show win0_3.index t (0 : Fin 2) * 128 + 1 * j.val = j.val; rw [e0]; omega
  | ⟨1, _⟩ => show win0_3.index t (1 : Fin 2) * 32 + 1 * a.val = a.val; rw [e1]; omega

theorem bh_block (c : Dev nD) (t : Fin cfg0.N) (a : Fin 32) :
    (iblk m c 4 t : S1x32.Idx → EReal) (ix2 (0 : Fin 1) a) = bh m c (ix1 a) := by
  obtain ⟨-, -, -, -, -, -, -, -, -, -, e0, e1, -⟩ := idx_facts t
  unfold iblk
  rw [View.read_apply]
  show V m c main_call0_v2 _ = _
  rw [V_biash]
  refine shapeCast_apply _ _ _ _ ?_
  rw [Shape.rowMajor_val_one, Shape.rowMajor_val_two]
  show a.val = (win0_4.index t (0 : Fin 2) * 1 + 1 * 0) * 32 + (win0_4.index t (1 : Fin 2) * 32 + 1 * a.val)
  rw [e0, e1]; omega

theorem wv_block (c : Dev nD) (t : Fin cfg0.N) (j : Fin 128) :
    (iblk m c 5 t : S128x1.Idx → EReal) (ix2 j (0 : Fin 1)) = Wv m c (ix2 j (0 : Fin 1)) := by
  obtain ⟨-, -, -, -, -, -, -, -, -, -, -, -, e0, e1, -⟩ := idx_facts t
  unfold iblk
  rw [View.read_apply]
  show V m c main_arg5 _ = _
  rw [V_main_arg5]
  refine congrArg (Wv m c) (funext fun d => Fin.ext ?_)
  match d with
  | ⟨0, _⟩ => show win0_5.index t (0 : Fin 2) * 128 + 1 * j.val = j.val; rw [e0]; omega
  | ⟨1, _⟩ => show win0_5.index t (1 : Fin 2) * 1 + 1 * 0 = 0; rw [e1]

theorem bv_block (c : Dev nD) (t : Fin cfg0.N) :
    (iblk m c 6 t : S1x1.Idx → EReal) (ix2 (0 : Fin 1) (0 : Fin 1)) = bv m c (ix1 (0 : Fin 1)) := by
  obtain ⟨-, -, -, -, -, -, -, -, -, -, -, -, -, -, e0, e1, -⟩ := idx_facts t
  unfold iblk
  rw [View.read_apply]
  show V m c main_call0_v3 _ = _
  rw [V_biasv]
  refine shapeCast_apply _ _ _ _ ?_
  rw [Shape.rowMajor_val_one, Shape.rowMajor_val_two]
  show 0 = (win0_6.index t (0 : Fin 2) * 1 + 1 * 0) * 1 + (win0_6.index t (1 : Fin 2) * 1 + 1 * 0)
  rw [e0, e1]

/-! ## A row of the point's blocks is an agent of the population -/

/-- Row `p`'s hidden units at point `t` are agent 2000·t + p's. -/
theorem hiddenRow_eq (c : Dev nD) (t : Fin cfg0.N) (p : Fin 2000) :
    hiddenRow (iblk m c 0 t) (iblk m c 1 t) (iblk m c 2 t) p = hiddenOf (X m c) (W1 m c) (b1 m c) (agent t p) := by
  have h1 : slotsOf (iblk m c 0 t) p = slots (X m c) (agent t p) :=
    funext fun s => funext fun k => state_block m c t p s k
  have h2 : slabsOf (iblk m c 1 t) = slabs (W1 m c) :=
    funext fun s => funext fun k => funext fun j => slab_block m c t s k j
  have h3 : (fun j : Fin 128 => (iblk m c 2 t : S1x128.Idx → EReal) (ix2 (0 : Fin 1) j)) = fun j => b1 m c (ix1 j) :=
    funext fun j => bias1_block m c t j
  show hidden (slotsOf (iblk m c 0 t) p) (slabsOf (iblk m c 1 t))
      (fun j : Fin 128 => (iblk m c 2 t : S1x128.Idx → EReal) (ix2 (0 : Fin 1) j))
    = hidden (slots (X m c) (agent t p)) (slabs (W1 m c)) (fun j => b1 m c (ix1 j))
  rw [h1, h2, h3]

/-- Row `p`'s logits at point `t` are agent 2000·t + p's. -/
theorem logitsRow_eq (c : Dev nD) (t : Fin cfg0.N) (p : Fin 2000) :
    logitsRow (iblk m c 0 t) (iblk m c 1 t) (iblk m c 2 t) (iblk m c 3 t) (iblk m c 4 t) p
      = logits (hiddenOf (X m c) (W1 m c) (b1 m c) (agent t p)) (fun j a => Wh m c (ix2 j a)) (fun a => bh m c (ix1 a)) := by
  have h3 : (fun (j : Fin 128) (a : Fin 32) => (iblk m c 3 t : S128x32.Idx → EReal) (ix2 j a)) = fun j a => Wh m c (ix2 j a) :=
    funext fun j => funext fun a => wh_block m c t j a
  have h4 : (fun a : Fin 32 => (iblk m c 4 t : S1x32.Idx → EReal) (ix2 (0 : Fin 1) a)) = fun a => bh m c (ix1 a) :=
    funext fun a => bh_block m c t a
  show logits (hiddenRow (iblk m c 0 t) (iblk m c 1 t) (iblk m c 2 t) p)
      (fun (j : Fin 128) (a : Fin 32) => (iblk m c 3 t : S128x32.Idx → EReal) (ix2 j a))
      (fun a : Fin 32 => (iblk m c 4 t : S1x32.Idx → EReal) (ix2 (0 : Fin 1) a)) = _
  rw [hiddenRow_eq m c t p, h3, h4]

/-! ## What a point writes back -/

/-- POINT `t` WRITES BACK block `t` of the policy array. -/
theorem flushed_policy (c : Dev nD) (t : Fin cfg0.N) :
    (dats m 0 c).flushed 7 t
      = ((cfg0.win 7).blk t).view.read (Elt Ideal) (policy (X m c) (W1 m c) (b1 m c) (Wh m c) (bh m c)) := by
  obtain ⟨-, -, -, -, -, -, -, -, -, -, -, -, -, -, -, -, e0, e1, -⟩ := idx_facts t
  rw [flushed7]
  funext y
  obtain ⟨p, a, rfl⟩ : ∃ (p : Fin 2000) (a : Fin 32), y = ix2 p a := ⟨y 0, y 1, eq_ix2 (n0 := 2000) (n1 := 32) y⟩
  rw [View.read_apply]
  have hemb : ((cfg0.win 7).blk t).view.emb (ix2 p a) = ix2 (agent t p) a := funext fun d => Fin.ext (by
    match d with
    | ⟨0, _⟩ => show win0_7.index t (0 : Fin 2) * 2000 + 1 * p.val = 2000 * t.val + p.val; rw [e0]; omega
    | ⟨1, _⟩ => show win0_7.index t (1 : Fin 2) * 32 + 1 * a.val = a.val; rw [e1]; omega)
  rw [hemb]
  show out0_7 (F := Ideal) (iblk m c 0 t) (iblk m c 1 t) (iblk m c 2 t) (iblk m c 3 t) (iblk m c 4 t) (iblk m c 5 t) (iblk m c 6 t) (ix2 p a)
    = logSoftmax (logits (hiddenOf (X m c) (W1 m c) (b1 m c) (agent t p)) (fun j a => Wh m c (ix2 j a)) (fun a => bh m c (ix1 a))) a
  refine (policy_block (iblk m c 0 t) (iblk m c 1 t) (iblk m c 2 t) (iblk m c 3 t) (iblk m c 4 t) (iblk m c 5 t) (iblk m c 6 t) p a).trans ?_
  rw [logitsRow_eq m c t p]

/-- POINT `t` WRITES BACK block `t` of the value array. -/
theorem flushed_critic (c : Dev nD) (t : Fin cfg0.N) :
    (dats m 0 c).flushed 8 t
      = ((cfg0.win 8).blk t).view.read (Elt Ideal) (critic (X m c) (W1 m c) (b1 m c) (Wv m c) (bv m c)) := by
  obtain ⟨-, -, -, -, -, -, -, -, -, -, -, -, -, -, -, -, -, -, e0, e1⟩ := idx_facts t
  rw [flushed8]
  funext y
  obtain ⟨p, z, rfl⟩ : ∃ (p : Fin 2000) (z : Fin 1), y = ix2 p z := ⟨y 0, y 1, eq_ix2 (n0 := 2000) (n1 := 1) y⟩
  obtain rfl : z = (0 : Fin 1) := Subsingleton.elim _ _
  rw [View.read_apply]
  have hemb : ((cfg0.win 8).blk t).view.emb (ix2 p (0 : Fin 1)) = ix2 (agent t p) (0 : Fin 1) := funext fun d => Fin.ext (by
    match d with
    | ⟨0, _⟩ => show win0_8.index t (0 : Fin 2) * 2000 + 1 * p.val = 2000 * t.val + p.val; rw [e0]; omega
    | ⟨1, _⟩ => show win0_8.index t (1 : Fin 2) * 1 + 1 * 0 = 0; rw [e1])
  rw [hemb]
  show out0_8 (F := Ideal) (iblk m c 0 t) (iblk m c 1 t) (iblk m c 2 t) (iblk m c 3 t) (iblk m c 4 t) (iblk m c 5 t) (iblk m c 6 t) (ix2 p (0 : Fin 1))
    = value (hiddenOf (X m c) (W1 m c) (b1 m c) (agent t p)) (fun j => Wv m c (ix2 j (0 : Fin 1))) (bv m c (ix1 (0 : Fin 1)))
  refine (value_block (iblk m c 0 t) (iblk m c 1 t) (iblk m c 2 t) (iblk m c 3 t) (iblk m c 4 t) (iblk m c 5 t) (iblk m c 6 t) p).trans ?_
  have h5 : (fun j : Fin 128 => (iblk m c 5 t : S128x1.Idx → EReal) (ix2 j (0 : Fin 1))) = fun j => Wv m c (ix2 j (0 : Fin 1)) :=
    funext fun j => wv_block m c t j
  show value (hiddenRow (iblk m c 0 t) (iblk m c 1 t) (iblk m c 2 t) p)
      (fun j : Fin 128 => (iblk m c 5 t : S128x1.Idx → EReal) (ix2 j (0 : Fin 1)))
      ((iblk m c 6 t : S1x1.Idx → EReal) (ix2 (0 : Fin 1) (0 : Fin 1))) = _
  rw [hiddenRow_eq m c t p, h5, bv_block m c t]

/-! ## The blocks tile the arrays -/

theorem mem_blk7 (t : Fin cfg0.N) (i : S100000x32.Idx) :
    i ∈ ((cfg0.win 7).blk t).view.set ↔ ∀ a : Fin 2, win0_7.index t a * S2000x32.size a ≤ (i a).val ∧ (i a).val < win0_7.index t a * S2000x32.size a + S2000x32.size a := by
  show i ∈ ((View.whole main_v0_0).slice (win0_7.rect t)).set ↔ _
  rw [View.set_slice_whole, Rect.mem_set_unit]
  exact Iff.rfl

theorem mem_blk8 (t : Fin cfg0.N) (i : S100000x1.Idx) :
    i ∈ ((cfg0.win 8).blk t).view.set ↔ ∀ a : Fin 2, win0_8.index t a * S2000x1.size a ≤ (i a).val ∧ (i a).val < win0_8.index t a * S2000x1.size a + S2000x1.size a := by
  show i ∈ ((View.whole main_v0_1).slice (win0_8.rect t)).set ↔ _
  rw [View.set_slice_whole, Rect.mem_set_unit]
  exact Iff.rfl

/-- Row `r` of the policy array lies in block `r / 2000`. -/
theorem cover_policy (i : S100000x32.Idx) :
    ∃ t : Fin cfg0.N, (cfg0.win 7).flush t = true ∧ i ∈ ((cfg0.win 7).blk t).view.set := by
  have hi0 : (i 0).val < 100000 := (i 0).isLt
  have hi1 : (i 1).val < 32 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, -, -, -, -, -, -, -, -, e0, e1, -⟩ := idx_facts t
  refine ⟨t, flush0_7 t, ?_⟩
  rw [mem_blk7]
  intro a
  match a with
  | ⟨0, _⟩ =>
    show win0_7.index t (0 : Fin 2) * 2000 ≤ (i 0).val ∧ (i 0).val < win0_7.index t (0 : Fin 2) * 2000 + 2000
    rw [e0, ht]; omega
  | ⟨1, _⟩ =>
    show win0_7.index t (1 : Fin 2) * 32 ≤ (i 1).val ∧ (i 1).val < win0_7.index t (1 : Fin 2) * 32 + 32
    rw [e1]; omega

/-- Row `r` of the value array lies in block `r / 2000`. -/
theorem cover_critic (i : S100000x1.Idx) :
    ∃ t : Fin cfg0.N, (cfg0.win 8).flush t = true ∧ i ∈ ((cfg0.win 8).blk t).view.set := by
  have hi0 : (i 0).val < 100000 := (i 0).isLt
  have hi1 : (i 1).val < 1 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, -, -, -, -, -, -, -, -, -, -, e0, e1⟩ := idx_facts t
  refine ⟨t, flush0_8 t, ?_⟩
  rw [mem_blk8]
  intro a
  match a with
  | ⟨0, _⟩ =>
    show win0_8.index t (0 : Fin 2) * 2000 ≤ (i 0).val ∧ (i 0).val < win0_8.index t (0 : Fin 2) * 2000 + 2000
    rw [e0, ht]; omega
  | ⟨1, _⟩ =>
    show win0_8.index t (1 : Fin 2) * 1 ≤ (i 1).val ∧ (i 1).val < win0_8.index t (1 : Fin 2) * 1 + 1
    rw [e1]; omega

/-! ## The arrays after the run -/

theorem final_policy (c : Dev nD) :
    (dats m 0 c).arrAt 7 cfg0.N = policy (X m c) (W1 m c) (b1 m c) (Wh m c) (bh m c) :=
  (dats m 0 c).arrAt_eq_of_cover 7 (policy (X m c) (W1 m c) (b1 m c) (Wh m c) (bh m c))
    (fun t _ => flushed_policy m c t) cover_policy

theorem final_critic (c : Dev nD) :
    (dats m 0 c).arrAt 8 cfg0.N = critic (X m c) (W1 m c) (b1 m c) (Wv m c) (bv m c) :=
  (dats m 0 c).arrAt_eq_of_cover 8 (critic (X m c) (W1 m c) (b1 m c) (Wv m c) (bv m c))
    (fun t _ => flushed_critic m c t) cover_critic

/-- THE KERNEL'S RUN, READ: every weakly fair execution ends with the first result at the policy array and the second at
    the value array of the arguments, the arguments unchanged. -/
theorem run : θ_run defs (onTc (τ := τ) (main (F := Ideal))) ⟨m, fun _ => 0, ρ⟩ fun r => ∀ c : Dev nD,
      r.2.mem ((c : Thread nD τ).loc main_v0_0) = policy (X m c) (W1 m c) (b1 m c) (Wh m c) (bh m c)
      ∧ r.2.mem ((c : Thread nD τ).loc main_v0_1) = critic (X m c) (W1 m c) (b1 m c) (Wv m c) (bv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_policy m c), (h c).2.1.trans (final_critic m c), (h c).2.2⟩)
    (run_blocks m ρ)

end Cert.AgentHead.Arrays

end
-- ==== Proof.RefSide.lean ====
/-
  The reference program's two results are the two arrays of the actor–critic head.

  The reference flattens each agent's three slots of 128 numbers into one row of 384, multiplies by the
  384 × 128 first-layer matrix, adds the bias and takes tanh; from these hidden units it forms the 32 logits
  (a 128-term sum plus a bias), their log-softmax (row maximum started from −∞, shifted logits, logarithm
  of the row sum of exponentials started from 0), and the value (a 128-term sum plus a bias).
  Element q of the flattened row is slot q / 128, place q % 128, so the 384-term sum of the first layer is the
  three slabs' 128-term sums (the law `sum_rows`: rows 128·s + k of the matrix are slab s); the extra maximum with −∞
  after the row maximum is absorbed (`max_negInf_rowMax`); the row sum's initial word is 0.
-/
import proofs.«145699_g31911607009636_cont_8to1_b_911_5_alg».proof.Proof.RefRead
import proofs.«145699_g31911607009636_cont_8to1_b_911_5_alg».proof.Proof.Spec
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.AgentHead.Ref

open Cert.ReferenceIdeal Cert.ReferenceIdeal.ReadP Idealize.ShloMosaic Idealize.ShloMosaic.ValueIdx Cert.AgentHead

/-! ## The first layer: the flattened row against the 384 × 128 matrix, slab by slab -/

/-- Element 128·s + k of agent `r`'s flattened row is place `k` of slot `s`. -/
theorem flat_index (r : Fin 100000) (j : Fin 128) (s : Fin 3) (k : Fin 128) :
    idx_main_v0 (lidx_main_v1 (ix2 r j) (row s k)) = ix3 r s k := by
  funext a
  refine Fin.ext ?_
  have hs := s.isLt
  have hk := k.isLt
  match a with
  | ⟨0, _⟩ =>
    show (r.val * 384 + (128 * s.val + k.val)) / 384 = r.val
    omega
  | ⟨1, _⟩ =>
    show (r.val * 384 + (128 * s.val + k.val)) / 128 % 3 = s.val
    omega
  | ⟨2, _⟩ =>
    show (r.val * 384 + (128 * s.val + k.val)) % 128 = k.val
    omega

/-- The matrix entry the product meets is row 128·s + k, column `j`. -/
theorem weight_index (r : Fin 100000) (j : Fin 128) (q : Fin 384) :
    ridx_main_v1 (ix2 r j) q = ix2 q j := by
  funext a
  match a with
  | ⟨0, _⟩ => rfl
  | ⟨1, _⟩ => rfl

/-- One product of the first layer's sum, at row 128·s + k: the slot's number times the slab's weight. -/
theorem first_layer_term (x0 : (⟨S100000x3x128, .f32⟩ : BufTy).Contents (Elt Ideal)) (x1 : (⟨S384x128, .f32⟩ : BufTy).Contents (Elt Ideal)) (r : Fin 100000) (j : Fin 128) (s : Fin 3) (k : Fin 128) :
    val_main_v0 (F := Ideal) x0 (lidx_main_v1 (ix2 r j) (row s k)) * x1 (ridx_main_v1 (ix2 r j) (row s k))
      = slots x0 r s k * slabs x1 s k j := by
  rw [val_main_v0_apply, flat_index, weight_index]
  rfl

/-- The bias a hidden unit adds is entry `j` of the bias vector. -/
theorem bias_index (r : Fin 100000) (j : Fin 128) : idx_main_v2 (idx_main_v3 (ix2 r j)) = ix1 j := by
  funext a
  match a with
  | ⟨0, _⟩ => rfl

/-- The reference's hidden unit `j` of agent `r` is the head's: the 384-term sum splits into the three slabs' sums. -/
theorem hidden_ref (x0 : (⟨S100000x3x128, .f32⟩ : BufTy).Contents (Elt Ideal)) (x1 : (⟨S384x128, .f32⟩ : BufTy).Contents (Elt Ideal)) (x2 : (⟨S128, .f32⟩ : BufTy).Contents (Elt Ideal)) (r : Fin 100000) (j : Fin 128) :
    val_main_v5 (F := Ideal) x0 x1 x2 (ix2 r j) = hiddenOf x0 x1 x2 r j := by
  rw [val_main_v5_apply, val_main_v4_apply, val_main_v1_apply, val_main_v3_apply, val_main_v2_apply, bias_index,
    sum_rows]
  show Ideal.tanh (_ + _) = Ideal.tanh (_ + _)
  refine congrArg Ideal.tanh (congrArg (· + x2 (ix1 j)) ?_)
  refine congrArg₂ (· + ·) (congrArg₂ (· + ·) ?_ ?_) ?_
  · exact Finset.sum_congr rfl fun k _ => first_layer_term x0 x1 r j 0 k
  · exact Finset.sum_congr rfl fun k _ => first_layer_term x0 x1 r j 1 k
  · exact Finset.sum_congr rfl fun k _ => first_layer_term x0 x1 r j 2 k

/-! ## The logits -/

/-- Agent `r`'s logits as the reference holds them. -/
def refLogits (x0 : (⟨S100000x3x128, .f32⟩ : BufTy).Contents (Elt Ideal)) (x1 : (⟨S384x128, .f32⟩ : BufTy).Contents (Elt Ideal)) (x2 : (⟨S128, .f32⟩ : BufTy).Contents (Elt Ideal)) (x3 : (⟨S128x32, .f32⟩ : BufTy).Contents (Elt Ideal)) (x4 : (⟨S32, .f32⟩ : BufTy).Contents (Elt Ideal)) (r : Fin 100000) : Fin 32 → EReal :=
  fun a => val_main_v9 (F := Ideal) x0 x1 x2 x3 x4 (ix2 r a)

/-- The reference's logit `a` of agent `r` is the head's logit from the head's hidden units. -/
theorem logit_ref (x0 : (⟨S100000x3x128, .f32⟩ : BufTy).Contents (Elt Ideal)) (x1 : (⟨S384x128, .f32⟩ : BufTy).Contents (Elt Ideal)) (x2 : (⟨S128, .f32⟩ : BufTy).Contents (Elt Ideal)) (x3 : (⟨S128x32, .f32⟩ : BufTy).Contents (Elt Ideal)) (x4 : (⟨S32, .f32⟩ : BufTy).Contents (Elt Ideal)) (r : Fin 100000) (a : Fin 32) :
    val_main_v9 (F := Ideal) x0 x1 x2 x3 x4 (ix2 r a)
      = logits (hiddenOf x0 x1 x2 r) (fun j a => x3 (ix2 j a)) (fun a => x4 (ix1 a)) a := by
  rw [val_main_v9_apply, val_main_v6_apply, val_main_v8_apply, val_main_v7_apply]
  show (∑ k : Fin 128, _) + _ = (∑ k : Fin 128, _) + _
  refine congrArg₂ (· + ·) (Finset.sum_congr rfl fun k _ => ?_) ?_
  · have hl : lidx_main_v6 (ix2 r a) k = ix2 r k := by
      funext c
      match c with
      | ⟨0, _⟩ => rfl
      | ⟨1, _⟩ => rfl
    have hr : ridx_main_v6 (ix2 r a) k = ix2 k a := by
      funext c
      match c with
      | ⟨0, _⟩ => rfl
      | ⟨1, _⟩ => rfl
    rw [hl, hr, hidden_ref]
  · refine congrArg x4 ?_
    funext c
    match c with
    | ⟨0, _⟩ => rfl

theorem refLogits_eq (x0 : (⟨S100000x3x128, .f32⟩ : BufTy).Contents (Elt Ideal)) (x1 : (⟨S384x128, .f32⟩ : BufTy).Contents (Elt Ideal)) (x2 : (⟨S128, .f32⟩ : BufTy).Contents (Elt Ideal)) (x3 : (⟨S128x32, .f32⟩ : BufTy).Contents (Elt Ideal)) (x4 : (⟨S32, .f32⟩ : BufTy).Contents (Elt Ideal)) (r : Fin 100000) :
    refLogits x0 x1 x2 x3 x4 r = logits (hiddenOf x0 x1 x2 r) (fun j a => x3 (ix2 j a)) (fun a => x4 (ix1 a)) :=
  funext fun a => logit_ref x0 x1 x2 x3 x4 r a

/-! ## The log-softmax -/

/-- The reference's row maximum — the fold of the maximum over the 32 logits from −∞, then one more maximum with
    −∞ — is the head's row maximum. -/
theorem rowMax_ref (x0 : (⟨S100000x3x128, .f32⟩ : BufTy).Contents (Elt Ideal)) (x1 : (⟨S384x128, .f32⟩ : BufTy).Contents (Elt Ideal)) (x2 : (⟨S128, .f32⟩ : BufTy).Contents (Elt Ideal)) (x3 : (⟨S128x32, .f32⟩ : BufTy).Contents (Elt Ideal)) (x4 : (⟨S32, .f32⟩ : BufTy).Contents (Elt Ideal)) (r : Fin 100000) :
    val_main_call0_v2 (F := Ideal) x0 x1 x2 x3 x4 (ix1 r) = rowMax (refLogits x0 x1 x2 x3 x4 r) := by
  have hred : S100000x32.Reduces [1] S100000 := by decide
  have hlift : ∀ k : Fin 32, hred.lift (ix1 r) k = ix2 r k := fun k => by
    funext c
    refine Fin.ext ?_
    match c with
    | ⟨0, _⟩ => rfl
    | ⟨1, _⟩ => rfl
  rw [val_main_call0_v2_apply, val_main_call0_v1_apply, val_main_call0_cst_0_apply]
  unfold val_main_call0_v0
  rw [Host.reduce_eq_fold_single FloatOps.maximumf _ _ _ hred]
  refine Eq.trans ?_ (max_negInf_rowMax _)
  show max negInf _ = max negInf _
  refine congrArg (max negInf) ?_
  show (Finset.univ : Finset (Fin 32)).fold max negInf
      (val_main_v9 (F := Ideal) x0 x1 x2 x3 x4 ∘ hred.lift (ix1 r)) = rowMax (refLogits x0 x1 x2 x3 x4 r)
  unfold rowMax refLogits
  refine congrArg (fun l => (Finset.univ : Finset (Fin 32)).fold max negInf l) ?_
  funext k
  exact congrArg (val_main_v9 (F := Ideal) x0 x1 x2 x3 x4) (hlift k)

/-- The reference's shifted logit is the logit less the row maximum. -/
theorem shifted_ref (x0 : (⟨S100000x3x128, .f32⟩ : BufTy).Contents (Elt Ideal)) (x1 : (⟨S384x128, .f32⟩ : BufTy).Contents (Elt Ideal)) (x2 : (⟨S128, .f32⟩ : BufTy).Contents (Elt Ideal)) (x3 : (⟨S128x32, .f32⟩ : BufTy).Contents (Elt Ideal)) (x4 : (⟨S32, .f32⟩ : BufTy).Contents (Elt Ideal)) (r : Fin 100000) (a : Fin 32) :
    val_main_call0_v5 (F := Ideal) x0 x1 x2 x3 x4 (ix2 r a)
      = refLogits x0 x1 x2 x3 x4 r a - rowMax (refLogits x0 x1 x2 x3 x4 r) := by
  have hi : idx_main_call0_v3 (idx_main_call0_v4 (ix2 r a)) = ix1 r := by
    funext c
    match c with
    | ⟨0, _⟩ => rfl
  rw [val_main_call0_v5_apply, val_main_call0_v4_apply, val_main_call0_v3_apply, hi, rowMax_ref]
  rfl

/-- The reference's logarithm of the row sum of exponentials is the head's. -/
theorem logSum_ref (x0 : (⟨S100000x3x128, .f32⟩ : BufTy).Contents (Elt Ideal)) (x1 : (⟨S384x128, .f32⟩ : BufTy).Contents (Elt Ideal)) (x2 : (⟨S128, .f32⟩ : BufTy).Contents (Elt Ideal)) (x3 : (⟨S128x32, .f32⟩ : BufTy).Contents (Elt Ideal)) (x4 : (⟨S32, .f32⟩ : BufTy).Contents (Elt Ideal)) (r : Fin 100000) (a : Fin 32) :
    val_main_call0_v10 (F := Ideal) x0 x1 x2 x3 x4 (ix2 r a)
      = Ideal.log (∑ a', Ideal.exp (refLogits x0 x1 x2 x3 x4 r a' - rowMax (refLogits x0 x1 x2 x3 x4 r))) := by
  have hi : idx_main_call0_v8 (idx_main_call0_v10 (ix2 r a)) = ix1 r := by
    funext c
    match c with
    | ⟨0, _⟩ => rfl
  have hk : ∀ k : Fin 32, idx_main_call0_v7 (ix1 r) k = ix2 r k := fun k => by
    funext c
    match c with
    | ⟨0, _⟩ => rfl
    | ⟨1, _⟩ => rfl
  rw [val_main_call0_v10_apply, val_main_call0_v9_apply, val_main_call0_v8_apply, hi, val_main_call0_v7_apply,
    val_main_call0_cst_1_apply, Ideal.hostUnary_log_def, Ideal.ofBits_def, Ideal.ofBits_zero_f32, zero_add]
  refine congrArg Ideal.log (Finset.sum_congr rfl fun k _ => ?_)
  rw [hk, val_main_call0_v6_apply, shifted_ref, Ideal.hostUnary_exp_def]

/-! ## The two results -/

theorem policy_ref (x0 : (⟨S100000x3x128, .f32⟩ : BufTy).Contents (Elt Ideal)) (x1 : (⟨S384x128, .f32⟩ : BufTy).Contents (Elt Ideal)) (x2 : (⟨S128, .f32⟩ : BufTy).Contents (Elt Ideal)) (x3 : (⟨S128x32, .f32⟩ : BufTy).Contents (Elt Ideal)) (x4 : (⟨S32, .f32⟩ : BufTy).Contents (Elt Ideal)) :
    val_main_v10 (F := Ideal) x0 x1 x2 x3 x4 = policy x0 x1 x2 x3 x4 := by
  funext i
  obtain ⟨r, a, rfl⟩ : ∃ (r : Fin 100000) (a : Fin 32), i = ix2 r a := ⟨i 0, i 1, eq_ix2 i⟩
  rw [val_main_v10_apply, shifted_ref, logSum_ref, refLogits_eq]
  rfl

theorem critic_ref (x0 : (⟨S100000x3x128, .f32⟩ : BufTy).Contents (Elt Ideal)) (x1 : (⟨S384x128, .f32⟩ : BufTy).Contents (Elt Ideal)) (x2 : (⟨S128, .f32⟩ : BufTy).Contents (Elt Ideal)) (x5 : (⟨S128x1, .f32⟩ : BufTy).Contents (Elt Ideal)) (x6 : (⟨S1, .f32⟩ : BufTy).Contents (Elt Ideal)) :
    val_main_v14 (F := Ideal) x0 x1 x2 x5 x6 = critic x0 x1 x2 x5 x6 := by
  funext i
  obtain ⟨r, c, rfl⟩ : ∃ (r : Fin 100000) (c : Fin 1), i = ix2 r c := ⟨i 0, i 1, eq_ix2 i⟩
  obtain rfl : c = 0 := Subsingleton.elim _ _
  rw [val_main_v14_apply, val_main_v11_apply, val_main_v13_apply, val_main_v12_apply]
  show (∑ k : Fin 128, _) + _ = (∑ k : Fin 128, _) + _
  refine congrArg₂ (· + ·) (Finset.sum_congr rfl fun k _ => ?_) ?_
  · have hl : lidx_main_v11 (ix2 r (0 : Fin 1)) k = ix2 r k := by
      funext d
      match d with
      | ⟨0, _⟩ => rfl
      | ⟨1, _⟩ => rfl
    have hr : ridx_main_v11 (ix2 r (0 : Fin 1)) k = ix2 k (0 : Fin 1) := by
      funext d
      match d with
      | ⟨0, _⟩ => rfl
      | ⟨1, _⟩ => rfl
    rw [hl, hr, hidden_ref]
  · refine congrArg x6 ?_
    funext d
    match d with
    | ⟨0, _⟩ => rfl

end Cert.AgentHead.Ref

end
-- ==== Proof.RefStages.lean ====
/-
  The reference program's run, read stage by stage.

  The reference is a straight line of 29 host operations: ten that end in the logits array (the flattening, the first
  layer's product, bias and tanh, the logits' product and bias), fifteen that are the log-softmax of that array (written
  by the program as a function of one array argument: the row maximum from −∞, the shift, the exponentials' row sum from
  0, the logarithm, the second shift), and four that form the value array from the hidden units. What the line leaves in
  the policy buffer is read in those three stretches: the first leaves the logits, the second — over ANY contents of the
  logits' buffer — the log-softmax of them, the third does not write the policy buffer. Each stretch is short, so each
  reading is a computation on a small term; composed, the policy buffer ends at `val_main_v10` and the value buffer at
  `val_main_v14` of the arguments, the stages' own names for the two results.
-/
import proofs.«145699_g31911607009636_cont_8to1_b_911_5_alg».proof.Proof.RefRun
import proofs.«145699_g31911607009636_cont_8to1_b_911_5_alg».proof.Proof.RefRead
import Idealize.ShloMosaic.Lib.StableHlo.Run

noncomputable section

namespace Cert.AgentHead.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Tools -/

/-- The contents after two stretches of operations are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents carried to a typed reference's buffer type and back are the contents. -/
theorem ofBuf_toBuf {Val : EltTy → Type} {T : BufTy} (x : TRef sig T) (v : T.Contents Val) : x.ofBuf (x.toBuf v) = v := by
  obtain ⟨r, h, h2, h3⟩ := x
  subst h
  rfl

/-- At the logits' buffer and at the policy buffer the carrying is along an equation that holds by computation: the
    identity. -/
theorem ofBuf_logits (v : (⟨S100000x32, .f32⟩ : BufTy).Contents (Elt F)) :
    (TRef.of (T := ⟨S100000x32, .f32⟩) main_v9).ofBuf v = v := rfl
theorem toBuf_policy (v : (⟨S100000x32, .f32⟩ : BufTy).Contents (Elt F)) :
    (TRef.of (T := ⟨S100000x32, .f32⟩) main_v10).toBuf v = v := rfl

/-! ## The log-softmax of an array of logits, as the program writes it -/

/-- The row maximum from −∞ (and once more against −∞), broadcast back over the 32 actions. -/
def rowMaxOf (L : (⟨S100000x32, .f32⟩ : BufTy).Contents (Elt F)) : (⟨S100000x32, .f32⟩ : BufTy).Contents (Elt F) :=
  broadcastInDim S100000x32 ![0, 1] bcast_S100000x1_S100000x32_0_1
    (broadcastInDim S100000x1 ![0] bcast_S100000_S100000x1_0
      (maximumf (broadcastInDim S100000 ![] bcast_S_S100000 (constant S_ .f32 0xFF800000#32))
        (Host.reduce FloatOps.maximumf L (constant S_ .f32 0xFF800000#32) reducesTo_S100000x32_S100000_d1 h_S_)))

/-- The shifted logits less the logarithm of the row sum of their exponentials. -/
def logSoftmaxOf (L : (⟨S100000x32, .f32⟩ : BufTy).Contents (Elt F)) : (⟨S100000x32, .f32⟩ : BufTy).Contents (Elt F) :=
  subf (subf L (rowMaxOf L))
    (broadcastInDim S100000x32 ![0, 1] bcast_S100000x1_S100000x32_0_1
      (Host.log (broadcastInDim S100000x1 ![0] bcast_S100000_S100000x1_0
        (Host.reduceAdd (Host.exp (subf L (rowMaxOf L))) (constant S_ .f32 0x00000000#32) reducesTo_S100000x32_S100000_d1 h_S_))))

attribute [local irreducible] Host.reduce in
/-- Of the logits stage it is the policy stage. -/
theorem logSoftmaxOf_logits (x0 : (⟨S100000x3x128, .f32⟩ : BufTy).Contents (Elt F)) (x1 : (⟨S384x128, .f32⟩ : BufTy).Contents (Elt F))
    (x2 : (⟨S128, .f32⟩ : BufTy).Contents (Elt F)) (x3 : (⟨S128x32, .f32⟩ : BufTy).Contents (Elt F)) (x4 : (⟨S32, .f32⟩ : BufTy).Contents (Elt F)) :
    logSoftmaxOf (val_main_v9 (F := F) x0 x1 x2 x3 x4) = val_main_v10 (F := F) x0 x1 x2 x3 x4 := rfl

/-! ## The three stretches -/

/-- The first ten operations leave the logits stage in the logits' buffer. -/
theorem head_logits (V : Valuation τ sig (Elt F)) :
    after ((ops (F := F)).take 10) V (Proc.devRef .tc main_v9)
      = val_main_v9 (F := F) (V (Proc.devRef .tc main_arg0)) (V (Proc.devRef .tc main_arg1)) (V (Proc.devRef .tc main_arg2))
          (V (Proc.devRef .tc main_arg3)) (V (Proc.devRef .tc main_arg4)) := by
  simp only [ops, List.take_succ_cons, List.take_zero]
  after_results
  rfl

/-- The next fifteen, from any contents, leave in the policy buffer the log-softmax of what the logits' buffer held. -/
theorem callee_policy (V : Valuation τ sig (Elt F)) :
    after (((ops (F := F)).drop 10).take 15) V (Proc.devRef .tc main_v10)
      = (TRef.of (T := ⟨S100000x32, .f32⟩) main_v10).toBuf
          (logSoftmaxOf (F := F) ((TRef.of (T := ⟨S100000x32, .f32⟩) main_v9).ofBuf (V (Proc.devRef .tc main_v9)))) := by
  simp only [ops, List.drop_succ_cons, List.drop_zero, List.take_succ_cons, List.take_zero]
  after_results
  generalize V (Proc.devRef .tc main_v9) = L
  simp only [ofBuf_toBuf]
  rfl

/-- The last four do not write the policy buffer. -/
theorem tail_policy (V : Valuation τ sig (Elt F)) :
    after ((ops (F := F)).drop 25) V (Proc.devRef .tc main_v10) = V (Proc.devRef .tc main_v10) := by
  simp only [ops, List.drop_succ_cons, List.drop_zero]
  after_results

/-- THE POLICY BUFFER after the whole line: the policy stage of the arguments. -/
theorem policy_after (V : Valuation τ sig (Elt F)) :
    after (ops (F := F)) V (Proc.devRef .tc main_v10)
      = val_main_v10 (F := F) (V (Proc.devRef .tc main_arg0)) (V (Proc.devRef .tc main_arg1)) (V (Proc.devRef .tc main_arg2))
          (V (Proc.devRef .tc main_arg3)) (V (Proc.devRef .tc main_arg4)) := by
  show after ((ops (F := F)).take 10 ++ (((ops (F := F)).drop 10).take 15 ++ (ops (F := F)).drop 25)) V _ = _
  rw [after_append, after_append, tail_policy, callee_policy, head_logits, toBuf_policy, ofBuf_logits]
  exact logSoftmaxOf_logits _ _ _ _ _

/-! ## The run -/

set_option maxHeartbeats 2000000 in
/-- On every device, from any memory with zero counters: every weakly fair execution of the reference terminates with
    the policy buffer at the policy stage and the value buffer at the value stage of the arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = val_main_v10 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_v14)
        = val_main_v14 (F := F) (m ((c.tc : Thread nD τ).loc main_arg0)) (m ((c.tc : Thread nD τ).loc main_arg1))
            (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v10).trans (policy_after (launchContents m c)),
      (h c main_v14).trans (by after_results <;> rfl),
      (h c main_arg0).trans (by after_results <;> rfl),
      (h c main_arg1).trans (by after_results <;> rfl),
      (h c main_arg2).trans (by after_results <;> rfl),
      (h c main_arg3).trans (by after_results <;> rfl),
      (h c main_arg4).trans (by after_results <;> rfl),
      (h c main_arg5).trans (by after_results <;> rfl),
      (h c main_arg6).trans (by after_results <;> rfl)⟩)
    (run_seq scopedRefs_eq scopedSems_eq defs main (fun _ => ops) main_eq (fun _ => ops_sub) m ρ)

end Cert.AgentHead.RefStages

end
-- ==== Proof.lean ====
/-
  The certificate: a fused kernel for the actor–critic head of 100000 agents against its reference.

  Both programs compute, per agent, the hidden layer tanh (x · W₁ + b₁) over the agent's three slots of 128 numbers,
  the log-softmax of the 32 action logits and the state value. The kernel works on blocks of 2000 agents and contracts the
  384 products of the first layer slab by slab — three sums of 128 products — where the reference contracts one row of
  384; on the extended reals a sum may be regrouped freely (a commutative monoid), so the two agree at every input, and
  the precondition is never opened. Everything else is operation for operation the same: the row maximum from −∞, the
  shifted logits, the logarithm of the row sum of exponentials, the value's inner product.

  `Spec` states the two arrays as functions of the arguments; `Arrays.run` reads the kernel's run as those arrays
  (through `Block` and `Rows`: the body at one row of a block); `Ref.policy_ref` / `Ref.critic_ref` read the reference's
  stages as the same arrays; `RefStages.run` is the reference's run at its stages. The word-level kernel and the
  idealized kernel run without fault and keep their arguments (the generated frames); the idealization rewrote nothing.
-/
import proofs.«145699_g31911607009636_cont_8to1_b_911_5_alg».proof.Defs
import proofs.«145699_g31911607009636_cont_8to1_b_911_5_alg».proof.Proof.Gen.Kernel
import proofs.«145699_g31911607009636_cont_8to1_b_911_5_alg».proof.Proof.Gen.Kernel.Skeleton
import proofs.«145699_g31911607009636_cont_8to1_b_911_5_alg».proof.Proof.Gen.Kernel.Launch
import proofs.«145699_g31911607009636_cont_8to1_b_911_5_alg».proof.Proof.Gen.Kernel.Points
import proofs.«145699_g31911607009636_cont_8to1_b_911_5_alg».proof.Proof.Gen.Kernel.Frame
import proofs.«145699_g31911607009636_cont_8to1_b_911_5_alg».proof.Proof.Gen.KernelIdeal
import proofs.«145699_g31911607009636_cont_8to1_b_911_5_alg».proof.Proof.Gen.KernelIdeal.Skeleton
import proofs.«145699_g31911607009636_cont_8to1_b_911_5_alg».proof.Proof.Gen.KernelIdeal.Launch
import proofs.«145699_g31911607009636_cont_8to1_b_911_5_alg».proof.Proof.Gen.KernelIdeal.Points
import proofs.«145699_g31911607009636_cont_8to1_b_911_5_alg».proof.Proof.Gen.KernelIdeal.Frame
import proofs.«145699_g31911607009636_cont_8to1_b_911_5_alg».proof.Proof.Gen.KernelIdeal.Value
import proofs.«145699_g31911607009636_cont_8to1_b_911_5_alg».proof.Proof.Gen.ReferenceIdeal
import proofs.«145699_g31911607009636_cont_8to1_b_911_5_alg».proof.Proof.Gen.Pre_finite_inputs
import proofs.«145699_g31911607009636_cont_8to1_b_911_5_alg».proof.Proof.Arrays
import proofs.«145699_g31911607009636_cont_8to1_b_911_5_alg».proof.Proof.RefSide
import proofs.«145699_g31911607009636_cont_8to1_b_911_5_alg».proof.Proof.RefStages
import Idealize.ShloMosaic.Adequacy
import Idealize.ShloMosaic.Init

noncomputable section

namespace Cert.Proof

open Idealize.ShloMosaic Idealize.SL.Sem Cert.AgentHead

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (RefStages.run (F := Ideal) m ρ)

/-- From memories that agree on the seven arguments both programs end with the policy array and the value array of
    those arguments. -/
theorem algebraic : Cert.algebraic_KernelIdeal_ReferenceIdeal := by
  intro m ρ m' ρ' _ hagree
  refine ⟨fun c => policy (Arrays.X m c) (Arrays.W1 m c) (Arrays.b1 m c) (Arrays.Wh m c) (Arrays.bh m c),
    fun c => critic (Arrays.X m c) (Arrays.W1 m c) (Arrays.b1 m c) (Arrays.Wv m c) (Arrays.bv m c),
    Arrays.run m ρ, ?_⟩
  refine (θ_run Cert.ReferenceIdeal.defs _ _).mono (fun _ h c => ?_) (RefStages.run (F := Ideal) m' ρ')
  obtain ⟨hp, hv, hargs⟩ := h c
  obtain ⟨a0, a1, a2, a3, a4, a5, a6⟩ := hagree c
  refine ⟨hp.trans ?_, hv.trans ?_, hargs⟩
  · rw [a0, a1, a2, a3, a4]
    exact Ref.policy_ref _ _ _ _ _
  · rw [a0, a1, a2, a5, a6]
    exact Ref.critic_ref _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
